-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x5000 : Shape := ⟨2, ![8192, 5000]⟩
abbrev S_ : Shape := ⟨0, ![]⟩

class Facts : Prop where
  bcast_S_S8192x5000 : S_.BroadcastsInDim S8192x5000 (![] : Fin 0 → Fin S8192x5000.rank)
  reducesTo_S8192x5000_S_d0_1 : S8192x5000.ReducesTo [0, 1] S_
  h_S_ : 0 < S_.numel

variable [Facts]

def fn {F : FTy → Type} [FloatOps F] (main_arg0 : FVec F S8192x5000 .f32) (main_arg1 : IVec S8192x5000 32) : IVec S_ 1 :=
  let main_v0 : FVec F S8192x5000 .f32 := Host.absf main_arg0
  let main_cst : FVec F S_ .f32 := constant S_ .f32 0x7F800000#32
  let main_v1 : FVec F S8192x5000 .f32 := broadcastInDim S8192x5000 ![] bcast_S_S8192x5000 main_cst
  let main_v2 : IVec S8192x5000 1 := cmpf .olt main_v0 main_v1
  let main_c : IVec S_ 1 := constantI S_ 1 1#1
  let main_v3 : IVec S_ 1 := (fun x v => Host.reduce IntOp.andi x v reducesTo_S8192x5000_S_d0_1 h_S_) main_v2 main_c
  main_v3
-- ==== Kernel.lean ====
abbrev S8192x5000 : Shape := ⟨2, ![8192, 5000]⟩
abbrev S2x1x1 : Shape := ⟨3, ![2, 1, 1]⟩
abbrev S512x5000 : Shape := ⟨2, ![512, 5000]⟩
abbrev S1x1x1 : Shape := ⟨3, ![1, 1, 1]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S8192x5000, .f32⟩
  | .hbm, ⟨1, _⟩ => ⟨S8192x5000, .i32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S512x5000, .f32⟩
  | .local _ .vmem, ⟨1, _⟩ => ⟨S512x5000, .f32⟩
  | .local _ .vmem, ⟨2, _⟩ => ⟨S512x5000, .i32⟩
  | .local _ .vmem, ⟨3, _⟩ => ⟨S512x5000, .i32⟩
  | .local _ .vmem, ⟨4, _⟩ => ⟨S1x1x1, .f32⟩
  | .local _ .vmem, ⟨5, _⟩ => ⟨S1x1x1, .f32⟩
  | _, _ => ⟨S8192x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x5000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S512x5000_S512x5000_0_0 : ∀ a, (![0, 0] : Fin 2 → Nat) a + S512x5000.size a ≤ S512x5000.size a
  h_S512x5000 : 0 < S512x5000.numel
  reduces_S512x5000_S512 : S512x5000.Reduces [1] S512
  shapeCasts_S512_S512x1 : S512.ShapeCasts S512x1
  shapeCasts_S512x1_S1x512x1 : S512x1.ShapeCasts S1x512x1
  reduces_S1x512x1_S1 : S1x512x1.Reduces [1, 2] S1
  shapeCasts_S1_S1x1x1 : S1.ShapeCasts S1x1x1
  inpos_S1x1x1_p0_0_0 : ∀ a, (![0, 0, 0] : Fin 3 → Nat) a < S1x1x1.size a
  shapeCasts_S1x1x1_S1x1x1 : S1x1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x5000.size a ≤ S8192x5000.size a
  hwx0_0 : ∀ i : grid0.Coords, EltTy.bits .f32 = 32 ∨ (Rect.block (s := S8192x5000) S512x5000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x5000.size a ≤ S8192x5000.size a
  hwx0_1 : ∀ i : grid0.Coords, EltTy.bits .i32 = 32 ∨ (Rect.block (s := S8192x5000) S512x5000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S512x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x5000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x5000 : Shape := ⟨2, ![8192, 5000]⟩
abbrev S_ : Shape := ⟨0, ![]⟩
abbrev S8192 : Shape := ⟨1, ![8192]⟩

abbrev nBuf : Space → Nat
  | .hbm => 27
  | .vmem => 0
  | .smem => 0
  | _ => 0

abbrev bufTy : (tb : Table) → Fin (tcTables nBuf tb) → BufTy
  | .hbm, ⟨0, _⟩ => ⟨S8192x5000, .f32⟩
  | .hbm, ⟨1, _⟩ => ⟨S8192x5000, .i32⟩
  | .hbm, ⟨2, _⟩ => ⟨S_, .i32⟩
  | .hbm, ⟨3, _⟩ => ⟨S8192x5000, .i32⟩
  | .hbm, ⟨4, _⟩ => ⟨S8192x5000, .i1⟩
  | .hbm, ⟨5, _⟩ => ⟨S_, .i32⟩
  | .hbm, ⟨6, _⟩ => ⟨S8192x5000, .i32⟩
  | .hbm, ⟨7, _⟩ => ⟨S8192x5000, .i1⟩
  | .hbm, ⟨8, _⟩ => ⟨S8192x5000, .f32⟩
  | .hbm, ⟨9, _⟩ => ⟨S_, .f32⟩
  | .hbm, ⟨10, _⟩ => ⟨S_, .f32⟩
  | .hbm, ⟨11, _⟩ => ⟨S8192x5000, .f32⟩
  | .hbm, ⟨12, _⟩ => ⟨S8192x5000, .f32⟩
  | .hbm, ⟨13, _⟩ => ⟨S_, .f32⟩
  | .hbm, ⟨14, _⟩ => ⟨S8192, .f32⟩
  | .hbm, ⟨15, _⟩ => ⟨S8192x5000, .f32⟩
  | .hbm, ⟨16, _⟩ => ⟨S8192x5000, .f32⟩
  | .hbm, ⟨17, _⟩ => ⟨S_, .f32⟩
  | .hbm, ⟨18, _⟩ => ⟨S_, .f32⟩
  | .hbm, ⟨19, _⟩ => ⟨S8192x5000, .f32⟩
  | .hbm, ⟨20, _⟩ => ⟨S8192x5000, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | _, _ => ⟨S8192x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]

class Facts₀ : Prop where
  bcast_S_S8192x5000 : S_.BroadcastsInDim S8192x5000 (![] : Fin 0 → Fin S8192x5000.rank)
  reducesTo_S8192x5000_S8192_d1 : S8192x5000.ReducesTo [1] S8192
  h_S_ : 0 < S_.numel
  reducesTo_S8192_S_d0 : S8192.ReducesTo [0] S_

variable [Facts₀]

class Facts : Prop extends Facts₀ where

variable [Facts]
-- ==== Proof.Spec.lean ====
/-
  The mathematics of the pairwise ranking loss, with no program in sight.

  For a score `x` and a label word `t`, a NEGATIVE label (`t = 0`) contributes `exp x` to its row's
  negative sum and a POSITIVE label (`t > 0`, signed) contributes `exp (-x)` to its row's positive sum;
  any other label contributes `0` to both. A row's value is the product of its two sums, the loss is
  `log (1 + ·)` of the sum of the rows' values.

  Two facts are proved here. (1) One exponential serves both sums: with `e = exp (if t > 0 then 0 - x else x)`,
  selecting `e` on the negative labels gives the negative term and selecting it on the positive labels gives
  the positive term — a word that is zero is not above zero, and `0 - x = -x` on every extended real.
  (2) A sum over `a · n` consecutive naturals is the sum over `a` consecutive blocks of `n`: addition of
  extended reals is commutative and associative, so nothing about finiteness is needed.
-/
import Idealize.ShloMosaic.PureOps.Ideal
import Idealize.ShloMosaic.PureOps.Ideal.Laws
import Idealize.ShloMosaic.Lib.ValueIdx

noncomputable section

namespace Cert.Lsep

open Idealize.ShloMosaic Idealize.ShloMosaic.ValueIdx

/-! ## The two terms of an entry -/

/-- What an entry adds to its row's sum over the negative labels. -/
def negTerm (x : EReal) (t : BitVec 32) : EReal :=
  Scalar.select (IntOp.cmpi .eq t 0#32) (Ideal.exp x) 0

/-- What an entry adds to its row's sum over the positive labels. -/
def posTerm (x : EReal) (t : BitVec 32) : EReal :=
  Scalar.select (IntOp.cmpi .sgt t 0#32) (Ideal.exp (-x)) 0

/-- A label word that equals zero is not above zero. -/
theorem sgt_zero_of_eq_zero {t : BitVec 32} (h : IntOp.cmpi .eq t 0#32 = 1#1) :
    IntOp.cmpi .sgt t 0#32 = 0#1 := by
  by_cases ht : t = 0#32
  · subst ht; decide
  · exfalso
    have h0 : IntOp.cmpi .eq t 0#32 = 0#1 := by
      show BitVec.ofBool (t == 0#32) = 0#1
      rw [beq_eq_false_iff_ne.mpr ht]; rfl
    rw [h0] at h
    exact absurd h (by decide)

/-- The shared exponential, selected on the negative labels, is the negative term: there the label is not
    positive, so the exponent is `x` itself. -/
theorem shared_exp_neg (x : EReal) (t : BitVec 32) :
    Scalar.select (IntOp.cmpi .eq t 0#32)
      (Ideal.exp (Scalar.select (IntOp.cmpi .sgt t 0#32) (0 - x) x)) 0 = negTerm x t := by
  unfold negTerm
  by_cases h : IntOp.cmpi .eq t 0#32 = 1#1
  · simp only [h, sgt_zero_of_eq_zero h, select_one, select_zero]
  · simp only [eq_zero_of_ne_one h, select_zero]

/-- The shared exponential, selected on the positive labels, is the positive term: there the exponent is
    `0 - x`, which is `-x` on every extended real. -/
theorem shared_exp_pos (x : EReal) (t : BitVec 32) :
    Scalar.select (IntOp.cmpi .sgt t 0#32)
      (Ideal.exp (Scalar.select (IntOp.cmpi .sgt t 0#32) (0 - x) x)) 0 = posTerm x t := by
  unfold posTerm
  by_cases h : IntOp.cmpi .sgt t 0#32 = 1#1
  · simp only [h, select_one, zero_sub]
  · simp only [eq_zero_of_ne_one h, select_zero]

/-! ## Rows, blocks of rows, the whole batch -/

/-- The batch: 8192 rows of 5000 entries. -/
abbrev Batch : Shape := ⟨2, ![8192, 5000]⟩
/-- A block of 512 consecutive rows. -/
abbrev Block : Shape := ⟨2, ![512, 5000]⟩

/-- A row's value in the batch: its negative sum times its positive sum. -/
def rowValue (X : Batch.Idx → EReal) (T : Batch.Idx → BitVec 32) (R : Fin 8192) : EReal :=
  (∑ l : Fin 5000, negTerm (X (ix2 R l)) (T (ix2 R l))) * (∑ l : Fin 5000, posTerm (X (ix2 R l)) (T (ix2 R l)))

/-- The same of a row of a block. -/
def blockRowValue (X : Block.Idx → EReal) (T : Block.Idx → BitVec 32) (r : Fin 512) : EReal :=
  (∑ l : Fin 5000, negTerm (X (ix2 r l)) (T (ix2 r l))) * (∑ l : Fin 5000, posTerm (X (ix2 r l)) (T (ix2 r l)))

/-- A block's value: the sum of its rows' values. -/
def blockValue (X : Block.Idx → EReal) (T : Block.Idx → BitVec 32) : EReal :=
  ∑ r : Fin 512, blockRowValue X T r

/-- The batch's value: the sum of all rows' values. -/
def batchValue (X : Batch.Idx → EReal) (T : Batch.Idx → BitVec 32) : EReal :=
  ∑ R : Fin 8192, rowValue X T R

/-- Row `R` of the batch, for any natural `R` (taken modulo the number of rows, so that it is total). -/
def rowValueN (X : Batch.Idx → EReal) (T : Batch.Idx → BitVec 32) (R : ℕ) : EReal :=
  rowValue X T ⟨R % 8192, Nat.mod_lt _ (by decide)⟩

theorem batchValue_eq_range (X : Batch.Idx → EReal) (T : Batch.Idx → BitVec 32) :
    batchValue X T = ∑ R ∈ Finset.range 8192, rowValueN X T R := by
  unfold batchValue
  rw [← Fin.sum_univ_eq_sum_range (rowValueN X T) 8192]
  refine Finset.sum_congr rfl fun R _ => ?_
  unfold rowValueN
  exact congrArg (rowValue X T) (Fin.ext (Nat.mod_eq_of_lt R.isLt).symm)

/-! ## Regrouping a sum into consecutive blocks -/

/-- The sum over `a · n` consecutive naturals is the sum, over `a` consecutive blocks, of each block's `n` terms. -/
theorem sum_range_blocks {M : Type*} [AddCommMonoid M] (f : ℕ → M) (n : ℕ) :
    ∀ a : ℕ, ∑ b ∈ Finset.range a, ∑ r ∈ Finset.range n, f (b * n + r) = ∑ R ∈ Finset.range (a * n), f R
  | 0 => by simp
  | a + 1 => by
    rw [Finset.sum_range_succ, sum_range_blocks f n a, Nat.succ_mul, Finset.sum_range_add]

/-! ## Blocks and cores, by number -/

/-- Block `b`'s value: the sum of the values of rows `512 b` to `512 b + 511`. -/
def blockN (X : Batch.Idx → EReal) (T : Batch.Idx → BitVec 32) (b : ℕ) : EReal :=
  ∑ r ∈ Finset.range 512, rowValueN X T (b * 512 + r)

/-- Core `q`'s value: the sum of the values of blocks `8 q` to `8 q + 7`. -/
def coreValue (X : Batch.Idx → EReal) (T : Batch.Idx → BitVec 32) (q : ℕ) : EReal :=
  ∑ k ∈ Finset.range 8, blockN X T (q * 8 + k)

/-- The two cores' values add up to the batch's: 2 · 8 blocks of 512 rows are the 8192 rows. -/
theorem sum_coreValue (X : Batch.Idx → EReal) (T : Batch.Idx → BitVec 32) :
    ∑ q : Fin 2, coreValue X T q.val = batchValue X T := by
  rw [Fin.sum_univ_eq_sum_range (coreValue X T) 2]
  unfold coreValue
  rw [sum_range_blocks (blockN X T) 8 2]
  unfold blockN
  rw [sum_range_blocks (rowValueN X T) 512 (2 * 8)]
  exact (batchValue_eq_range X T).symm

/-- A block of 512 rows that holds rows `512 t` onward of the batch has block `t`'s value. -/
theorem blockValue_eq_blockN (X : Batch.Idx → EReal) (T : Batch.Idx → BitVec 32)
    (Xb : Block.Idx → EReal) (Tb : Block.Idx → BitVec 32) (t : ℕ) (ht : t < 16)
    (hX : ∀ (r : Fin 512) (l : Fin 5000), Xb (ix2 r l) = X (ix2 ⟨t * 512 + r.val, by omega⟩ l))
    (hT : ∀ (r : Fin 512) (l : Fin 5000), Tb (ix2 r l) = T (ix2 ⟨t * 512 + r.val, by omega⟩ l)) :
    blockValue Xb Tb = blockN X T t := by
  unfold blockValue blockN
  rw [← Fin.sum_univ_eq_sum_range (fun r => rowValueN X T (t * 512 + r)) 512]
  refine Finset.sum_congr rfl fun r _ => ?_
  unfold blockRowValue rowValueN rowValue
  have hR : (⟨(t * 512 + r.val) % 8192, Nat.mod_lt _ (by decide)⟩ : Fin 8192) = ⟨t * 512 + r.val, by omega⟩ :=
    Fin.ext (Nat.mod_eq_of_lt (by omega))
  rw [hR]
  simp only [hX, hT]

end Cert.Lsep

end
-- ==== Proof.Sums.lean ====
/-
  Sums over the indices of small shapes, re-indexed through their coordinates.

  An index of a shape is a tuple of bounded coordinates; summing a function over all indices of a rank-1 shape
  `[n]` is summing over its one coordinate, and the same holds for `[n, 1, 1]`, whose last two coordinates can
  only be zero. A reshape is a bijection of indices (both shapes list the same row-major positions), so it
  does not change the sum over all of them.
-/
import Idealize.ShloMosaic.PureOps.Ideal
import Idealize.ShloMosaic.Lib.ValueIdx

noncomputable section

namespace Cert.Lsep

open Idealize.ShloMosaic Idealize.ShloMosaic.ValueIdx

/-- The indices of `[n]` are the numbers below `n`. -/
def idxEquiv1 {n : Nat} : (⟨1, ![n]⟩ : Shape).Idx ≃ Fin n where
  toFun j := j 0
  invFun a := ix1 a
  left_inv j := (eq_ix1 j).symm
  right_inv _ := rfl

/-- A sum over the indices of `[n]` is the sum over its coordinate. -/
theorem sum_idx1 {M : Type*} [AddCommMonoid M] {n : Nat} (f : (⟨1, ![n]⟩ : Shape).Idx → M) :
    ∑ j, f j = ∑ a : Fin n, f (ix1 a) :=
  Fintype.sum_equiv idxEquiv1 f (fun a => f (ix1 a)) fun j => congrArg f (eq_ix1 j)

/-- The indices of `[n, 1, 1]` are the numbers below `n`: the two unit coordinates are zero. -/
def idxEquiv311 {n : Nat} : (⟨3, ![n, 1, 1]⟩ : Shape).Idx ≃ Fin n where
  toFun j := j 0
  invFun a := ix3 a (0 : Fin 1) (0 : Fin 1)
  left_inv j := by
    funext a
    match a with
    | ⟨0, _⟩ => rfl
    | ⟨1, _⟩ => exact Fin.ext (by have h : (j 1).val < 1 := (j 1).isLt; show 0 = (j 1).val; omega)
    | ⟨2, _⟩ => exact Fin.ext (by have h : (j 2).val < 1 := (j 2).isLt; show 0 = (j 2).val; omega)
  right_inv _ := rfl

/-- A sum over the indices of `[n, 1, 1]` is the sum over the leading coordinate. -/
theorem sum_idx311 {M : Type*} [AddCommMonoid M] {n : Nat} (f : (⟨3, ![n, 1, 1]⟩ : Shape).Idx → M) :
    ∑ j, f j = ∑ a : Fin n, f (ix3 a (0 : Fin 1) (0 : Fin 1)) :=
  Fintype.sum_equiv idxEquiv311 f (fun a => f (ix3 a (0 : Fin 1) (0 : Fin 1))) fun j => by
    show f j = f (ix3 (j 0) (0 : Fin 1) (0 : Fin 1))
    exact congrArg f (idxEquiv311.left_inv j).symm

/-- A reshape does not change the sum over all entries. -/
theorem sum_shapeCast {M : Type} [AddCommMonoid M] {s t : Shape} (x : s.Idx → M) (h : s.ShapeCasts t) :
    ∑ j, shapeCast t x h j = ∑ k, x k :=
  Equiv.sum_comp (Shape.reshapeEquiv h) x

end Cert.Lsep

end
-- ==== Proof.RefValue.lean ====
/-
  The reference computes the loss of the batch.

  Read one operation at a time, the reference selects `exp x` on the negative labels and `exp (-x)` on the
  positive ones (the host's negation and its exponential are, on extended reals, negation and the exponential),
  sums each selection along a row from zero, multiplies the two row sums, sums the products over all rows from
  zero, and takes `log (1 + ·)`. With the zero initial values dropped (`0 + s = s`) this is, by definition, the
  logarithm of one plus the batch's value.
-/
import proofs.«416524_j29532195127620_3_alg».proof.Proof.Gen.ReferenceIdeal.Read
import proofs.«416524_j29532195127620_3_alg».proof.Proof.Spec
import proofs.«416524_j29532195127620_3_alg».proof.Proof.Sums

noncomputable section

namespace Cert.ReferenceIdeal.RefValue

open Cert.ReferenceIdeal Cert.ReferenceIdeal.Read Idealize.ShloMosaic Idealize.ShloMosaic.ValueIdx Cert.Lsep

variable (x0 : (⟨S8192x5000, .f32⟩ : BufTy).Contents (Elt Ideal)) (x1 : (⟨S8192x5000, .i32⟩ : BufTy).Contents (Elt Ideal))

/-- The selection over the negative labels, at an entry. -/
theorem negEntry (i : S8192x5000.Idx) : val_main_v5 (F := Ideal) x0 x1 i = negTerm (x0 i) (x1 i) := by
  rw [val_main_v5_apply, val_main_v3_apply, val_main_v2_apply, val_main_c_0_apply, val_main_v4_apply,
    val_main_call0_v1_apply, val_main_call0_v0_apply, val_main_cst_apply]
  simp only [negTerm, Ideal.hostUnary_exp_def, Ideal.ofBits_def, Ideal.ofBits_zero_f32]

/-- The selection over the positive labels, at an entry. -/
theorem posEntry (i : S8192x5000.Idx) : val_main_v9 (F := Ideal) x0 x1 i = posTerm (x0 i) (x1 i) := by
  rw [val_main_v9_apply, val_main_v1_apply, val_main_v0_apply, val_main_c_apply, val_main_v8_apply, val_main_v7_apply,
    val_main_call1_v1_apply, val_main_call1_v0_apply, val_main_cst_2_apply]
  simp only [posTerm, Ideal.hostUnary_exp_def, Ideal.hostNegf_def, Ideal.negf_def, Ideal.ofBits_def, Ideal.ofBits_zero_f32]

/-- Entry `k` of row `R`, as each of the two row sums indexes it. -/
theorem idx_neg (R : Fin 8192) (k : Fin 5000) : idx_main_v6 (ix1 R) k = ix2 R k :=
  funext fun a => match a with | ⟨0, _⟩ => rfl | ⟨1, _⟩ => rfl
theorem idx_pos (R : Fin 8192) (k : Fin 5000) : idx_main_v10 (ix1 R) k = ix2 R k :=
  funext fun a => match a with | ⟨0, _⟩ => rfl | ⟨1, _⟩ => rfl

/-- The product of the two row sums, at row `R`, is that row's value. -/
theorem rowEntry (R : Fin 8192) : val_main_v11 (F := Ideal) x0 x1 (ix1 R) = rowValue x0 x1 R := by
  rw [val_main_v11_apply, val_main_v6_apply, val_main_v10_apply, val_main_cst_1_apply, val_main_cst_3_apply]
  simp only [Ideal.mulf_def, Ideal.ofBits_def, Ideal.ofBits_zero_f32, zero_add, negEntry, posEntry, idx_neg, idx_pos]
  rfl

/-- The reference's result is `log (1 + ·)` of the batch's value. -/
theorem result_eq (i : S_.Idx) : val_main_v13 (F := Ideal) x0 x1 i = Ideal.log1p (batchValue x0 x1) := by
  rw [val_main_v13_apply, val_main_v12_apply, val_main_cst_4_apply, sum_idx1]
  simp only [Ideal.hostUnary_log1p_def, Ideal.ofBits_def, Ideal.ofBits_zero_f32, zero_add, rowEntry]
  rfl

end Cert.ReferenceIdeal.RefValue

end
-- ==== Proof.Pieces.lean ====
/-
  What one run of the kernel's body leaves in the output's one-entry staging buffer.

  The body first resets the buffer to zero when the point is the first of its core's eight (the reset case),
  then adds the block's value to whatever the buffer holds. So in the reset case the buffer ends at the
  body's sum `pay2` over the two input blocks and the zero entry it has just stored and read back, and in the
  other case at the same sum over the input blocks and the entry the point before left.
-/
import proofs.«416524_j29532195127620_3_alg».proof.Proof.Gen.KernelIdeal.Frame
import Idealize.ShloMosaic.Lib.Pipeline.Value
import Idealize.ShloMosaic.Lib.Tactic

noncomputable section

namespace Cert.KernelIdeal.Acc

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The carrying case: the buffer holds `xo`; the body leaves its sum over the input blocks and `xo`. -/
theorem out_carry (c : Dev nD) (i : grid0.Coords) (a2 : Memref sig .tc .vmem S512x5000 .f32) (h2 : a2.IsWhole)
    (a3 : Memref sig .tc .vmem S512x5000 .i32) (h3 : a3.IsWhole) (a4 : Memref sig .tc .vmem S1x1x1 .f32) (h4 : a4.IsWhole)
    (hc : ¬cond0_0 i) (x0 : Vec F S512x5000 .f32) (x1 : Vec F S512x5000 .i32) (xo : Vec F S1x1x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S512x5000) hz2,
    View.ld_unit_zero (S := S1x1x1) hz3]

/-- The reset case: the body stores the zero entry `pay1`, reads it back, and leaves its sum over the input
    blocks and that entry. -/
theorem out_reset (c : Dev nD) (i : grid0.Coords) (a2 : Memref sig .tc .vmem S512x5000 .f32) (h2 : a2.IsWhole)
    (a3 : Memref sig .tc .vmem S512x5000 .i32) (h3 : a3.IsWhole) (a4 : Memref sig .tc .vmem S1x1x1 .f32) (h4 : a4.IsWhole)
    (hc : cond0_0 i) (x0 : Vec F S512x5000 .f32) (x1 : Vec F S512x5000 .i32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S512x5000) hz2]

end Cert.KernelIdeal.Acc

end
-- ==== Proof.Payload.lean ====
/-
  The body's sum, on extended reals.

  The body selects the shared exponential on the negative and on the positive labels of its block, sums each
  selection along the rows, multiplies the two columns of row sums entry by entry, sums the products over the
  block's 512 rows, and adds the total to the entry the output buffer holds. The reshapes between these steps
  ([512] to [512, 1] to [1, 512, 1], [1] to [1, 1, 1]) only rename indices, so on extended reals the new entry is
  the old one plus the block's value.
-/
import proofs.«416524_j29532195127620_3_alg».proof.Proof.Gen.KernelIdeal.Skeleton
import proofs.«416524_j29532195127620_3_alg».proof.Proof.Spec
import proofs.«416524_j29532195127620_3_alg».proof.Proof.Sums
import Idealize.ShloMosaic.PureOps.Ideal.Laws
import Idealize.ShloMosaic.Lib.Pipeline.Value

noncomputable section

namespace Cert.KernelIdeal.Acc

open Cert.KernelIdeal Cert.KernelIdeal.Gen
open Idealize.ShloMosaic Idealize.ShloMosaic.ValueIdx Cert.Lsep

/-- The zero entry the reset stores. -/
theorem pay1_apply (i : S1x1x1.Idx) : k0_pay1 (F := Ideal) i = 0 := by
  show Ideal.ofBits .f32 0x00000000#32 = 0
  exact Ideal.ofBits_zero_f32

variable (x0 : Vec Ideal S512x5000 .f32) (x1 : Vec Ideal S512x5000 .i32)

/-- The shared exponential of a block: `exp (0 - x)` on the positive labels, `exp x` elsewhere. -/
def sharedExp : FVec Ideal S512x5000 .f32 :=
  exp (select (cmpi .sgt x1 (broadcast S512x5000 0#32)) (subf (broadcast S512x5000 (Scalar.ofBits .f32 0x00000000#32)) x0) x0)
/-- It selected on the negative labels, -/
def negSel : FVec Ideal S512x5000 .f32 :=
  select (cmpi .eq x1 (broadcast S512x5000 0#32)) (sharedExp x0 x1) (broadcast S512x5000 (Scalar.ofBits .f32 0x00000000#32))
/-- and on the positive labels. -/
def posSel : FVec Ideal S512x5000 .f32 :=
  select (cmpi .sgt x1 (broadcast S512x5000 0#32)) (sharedExp x0 x1) (broadcast S512x5000 (Scalar.ofBits .f32 0x00000000#32))

theorem negSel_apply (j : S512x5000.Idx) : negSel x0 x1 j = negTerm (x0 j) (x1 j) := by
  show Scalar.select (IntOp.cmpi .eq (x1 j) 0#32)
    (Ideal.exp (Scalar.select (IntOp.cmpi .sgt (x1 j) 0#32) (Ideal.ofBits .f32 0x00000000#32 - x0 j) (x0 j)))
    (Ideal.ofBits .f32 0x00000000#32) = _
  rw [Ideal.ofBits_zero_f32]
  exact shared_exp_neg _ _

theorem posSel_apply (j : S512x5000.Idx) : posSel x0 x1 j = posTerm (x0 j) (x1 j) := by
  show Scalar.select (IntOp.cmpi .sgt (x1 j) 0#32)
    (Ideal.exp (Scalar.select (IntOp.cmpi .sgt (x1 j) 0#32) (Ideal.ofBits .f32 0x00000000#32 - x0 j) (x0 j)))
    (Ideal.ofBits .f32 0x00000000#32) = _
  rw [Ideal.ofBits_zero_f32]
  exact shared_exp_pos _ _

/-- The body's sum, its steps named. -/
theorem pay2_eq (acc : Vec Ideal S1x1x1 .f32) : k0_pay2 (F := Ideal) x0 x1 acc =
    addf (shapeCast S1x1x1 acc shapeCasts_S1x1x1_S1x1x1)
      (broadcast S1x1x1 (extractAt ![0, 0, 0]
        (shapeCast S1x1x1
          (multiReduction .add [1, 2] S1
            (shapeCast S1x512x1
              (mulf (shapeCast S512x1 (multiReduction .add [1] S512 (negSel x0 x1) 0x00000000#32 reduces_S512x5000_S512 (.inl rfl) rfl) shapeCasts_S512_S512x1)
                    (shapeCast S512x1 (multiReduction .add [1] S512 (posSel x0 x1) 0x00000000#32 reduces_S512x5000_S512 (.inl rfl) rfl) shapeCasts_S512_S512x1))
              shapeCasts_S512x1_S1x512x1)
            0x00000000#32 reduces_S1x512x1_S1 (.inl rfl) rfl)
          shapeCasts_S1_S1x1x1) inpos_S1x1x1_p0_0_0)) := rfl

/-- Entry `l` of row `r`, as a row sum of the block indexes it. -/
theorem lift_row (r : Fin 512) (l : Fin 5000) :
    reduces_S512x5000_S512.lift (ix1 r) l = ix2 r l :=
  funext fun a => match a with | ⟨0, _⟩ => rfl | ⟨1, _⟩ => rfl

/-- A row sum of a block, from the zero accumulator: the sum of the row's entries. -/
theorem rowSum_apply (v : FVec Ideal S512x5000 .f32) (hφ : FKind.Formats .f32)
    (hacc : (0x00000000#32 : BitVec 32) = 0x00000000#32) (r : Fin 512) :
    multiReduction .add [1] S512 v 0x00000000#32 reduces_S512x5000_S512 hφ hacc (ix1 r) = ∑ l : Fin 5000, v (ix2 r l) :=
  (Ideal.multiReduction_add_single v 0x00000000#32 reduces_S512x5000_S512 hφ hacc (ix1 r)).trans
    (Finset.sum_congr rfl fun l _ => congrArg v (lift_row r l))

/-- The sum over both axes of a [1, 512, 1] column, from the zero accumulator: the sum of all its entries. -/
theorem colTotal_apply (w : FVec Ideal S1x512x1 .f32) (hφ : FKind.Formats .f32)
    (hacc : (0x00000000#32 : BitVec 32) = 0x00000000#32) (j : S1.Idx) :
    multiReduction .add [1, 2] S1 w 0x00000000#32 reduces_S1x512x1_S1 hφ hacc j = ∑ i, w i :=
  Ideal.multiReduction_add_total w 0x00000000#32 reduces_S1x512x1_S1 (fun b => by fin_cases b; rfl) hφ hacc j

/-- The new entry is the old one plus the block's value. -/
theorem pay2_apply (acc : Vec Ideal S1x1x1 .f32) (i : S1x1x1.Idx) :
    k0_pay2 (F := Ideal) x0 x1 acc i = acc i + blockValue x0 x1 := by
  rw [pay2_eq]
  show shapeCast S1x1x1 acc shapeCasts_S1x1x1_S1x1x1 i
      + multiReduction .add [1, 2] S1
          (shapeCast S1x512x1
            (shapeCast S512x1
              (mulf (multiReduction .add [1] S512 (negSel x0 x1) 0x00000000#32 reduces_S512x5000_S512 (.inl rfl) rfl)
                    (multiReduction .add [1] S512 (posSel x0 x1) 0x00000000#32 reduces_S512x5000_S512 (.inl rfl) rfl))
              shapeCasts_S512_S512x1)
            shapeCasts_S512x1_S1x512x1)
          0x00000000#32 reduces_S1x512x1_S1 (.inl rfl) rfl _ = _
  rw [shapeCast_self]
  refine congrArg (acc i + ·) ((colTotal_apply _ _ _ _).trans ?_)
  rw [sum_shapeCast, sum_shapeCast, sum_idx1]
  refine Finset.sum_congr rfl fun r _ => ?_
  show multiReduction .add [1] S512 (negSel x0 x1) 0x00000000#32 reduces_S512x5000_S512 (.inl rfl) rfl (ix1 r)
      * multiReduction .add [1] S512 (posSel x0 x1) 0x00000000#32 reduces_S512x5000_S512 (.inl rfl) rfl (ix1 r) = _
  refine (congrArg₂ (· * ·) (rowSum_apply _ _ _ r) (rowSum_apply _ _ _ r)).trans ?_
  unfold blockRowValue
  congr 1
  · exact Finset.sum_congr rfl fun l _ => negSel_apply x0 x1 _
  · exact Finset.sum_congr rfl fun l _ => posSel_apply x0 x1 _

end Cert.KernelIdeal.Acc

end
-- ==== Proof.Accumulate.lean ====
/-
  What the kernel's output array holds after the sixteen grid points.

  Point `t` (core `t / 8`, step `t % 8`) stages rows `512 t` to `512 t + 511` of the two argument arrays, so the
  block it sees has block `t`'s value. The output's one-entry buffer is reset at the first step of a core and
  otherwise carried, so after point `t` it holds the sum of the values of the core's blocks up to `t` (induction
  on the point). It is written back after the last step of each core, into that core's entry of the [2, 1, 1]
  output array: the array ends holding the two cores' values.
-/
import proofs.«416524_j29532195127620_3_alg».proof.Proof.Gen.KernelIdeal.Frame
import proofs.«416524_j29532195127620_3_alg».proof.Proof.Pieces
import proofs.«416524_j29532195127620_3_alg».proof.Proof.Payload
import Idealize.ShloMosaic.Lib.Pipeline.Value
import Idealize.ShloMosaic.Lib.Tactic

noncomputable section

namespace Cert.KernelIdeal.Acc

open Cert.KernelIdeal Cert.KernelIdeal.Gen
open Idealize.ShloMosaic Idealize.ShloMosaic.TcCoe Idealize.SL.Sem Idealize.ShloMosaic.ValueIdx Cert.Lsep
open Idealize.ShloMosaic.Pipeline (Dat)

variable (m : (ℓ : Loc nD τ sig) → Buf (Elt Ideal) ℓ) (ρ : Dev nD → PrngReg)

/-- The two argument arrays on core `c`: the scores and the label words. -/
abbrev scores (c : Dev nD) : Batch.Idx → EReal := m ((c : Thread nD τ).loc main_arg0)
abbrev labels (c : Dev nD) : Batch.Idx → BitVec 32 := m ((c : Thread nD τ).loc main_arg1)

/-- The blocks of the two arrays that point `t` stages. -/
abbrev xblk (c : Dev nD) (t : Fin cfg0.N) : Vec Ideal S512x5000 .f32 := iblk m c 0 t
abbrev tblk (c : Dev nD) (t : Fin cfg0.N) : Vec Ideal S512x5000 .i32 := iblk m c 1 t

/-- The printed index maps over the grid: both inputs are at row block `t`, the output at entry `t / 8`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 8 ∧ win0_2.index t (1 : Fin 3) = 0 ∧ win0_2.index t (2 : Fin 3) = 0 :=
  (by decide +kernel : ∀ t : Fin grid0.N, _)

/-- Entry (r, l) of the scores' block at point `t` is entry (512 t + r, l) of the scores. -/
theorem xblk_apply (c : Dev nD) (t : Fin cfg0.N) (r : Fin 512) (l : Fin 5000) (hR : t.val * 512 + r.val < 8192) :
    xblk m c t (ix2 r l) = scores m c (ix2 ⟨t.val * 512 + r.val, hR⟩ l) := by
  show V m c main_arg0 (((cfg0.win 0).blk t).view.emb (ix2 r l)) = _
  refine congrArg (m ((c : Thread nD τ).loc main_arg0)) ?_
  obtain ⟨e0, e1, -⟩ := idx_facts t
  funext a; apply Fin.ext
  match a with
  | ⟨0, _⟩ => show win0_0.index t (0 : Fin 2) * 512 + 1 * r.val = t.val * 512 + r.val; omega
  | ⟨1, _⟩ => show win0_0.index t (1 : Fin 2) * 5000 + 1 * l.val = l.val; omega

/-- The same of the labels' block. -/
theorem tblk_apply (c : Dev nD) (t : Fin cfg0.N) (r : Fin 512) (l : Fin 5000) (hR : t.val * 512 + r.val < 8192) :
    tblk m c t (ix2 r l) = labels m c (ix2 ⟨t.val * 512 + r.val, hR⟩ l) := by
  show V m c main_arg1 (((cfg0.win 1).blk t).view.emb (ix2 r l)) = _
  refine congrArg (m ((c : Thread nD τ).loc main_arg1)) ?_
  obtain ⟨-, -, e2, e3, -⟩ := idx_facts t
  funext a; apply Fin.ext
  match a with
  | ⟨0, _⟩ => show win0_1.index t (0 : Fin 2) * 512 + 1 * r.val = t.val * 512 + r.val; omega
  | ⟨1, _⟩ => show win0_1.index t (1 : Fin 2) * 5000 + 1 * l.val = l.val; omega

/-- So the block point `t` sees has block `t`'s value. -/
theorem blockValue_at (c : Dev nD) (t : Fin cfg0.N) :
    blockValue (xblk m c t) (tblk m c t) = blockN (scores m c) (labels m c) t.val := by
  have hN : t.val < 16 := lt_of_lt_of_eq t.isLt (show cfg0.N = 16 from N_0)
  exact blockValue_eq_blockN (scores m c) (labels m c) (xblk m c t) (tblk m c t) t.val hN
    (fun r l => xblk_apply m c t r l (by have := r.isLt; omega)) (fun r l => tblk_apply m c t r l (by have := r.isLt; omega))

/-- At a core's first step the buffer ends at the block's value: zero plus it. -/
theorem entry_reset (c : Dev nD) (t : Fin cfg0.N) (h0 : t.val % 8 = 0) (i : S1x1x1.Idx) :
    outsAt0 m c t.val t.isLt i = blockN (scores m c) (labels m c) t.val := by
  refine (congrFun (outsAt0_A m c t h0) i).trans ?_
  refine (congrFun (out_reset (F := Ideal) c (grid0.coords t) (ms0_0 t) (hs0_0 t) (ms0_1 t) (hs0_1 t) (ms0_2 t) (hs0_2 t)
    ((hcond0_0 t).mpr h0) (xblk m c t) (tblk m c t)) i).trans ?_
  refine (pay2_apply (xblk m c t) (tblk m c t) (k0_pay1 (F := Ideal)) i).trans ?_
  rw [pay1_apply, zero_add]
  exact blockValue_at m c t

/-- At any other step it ends at what the step before left plus the block's value. -/
theorem entry_carry (c : Dev nD) (t : Fin cfg0.N) (h0 : ¬t.val % 8 = 0) (i : S1x1x1.Idx) :
    outsAt0 m c t.val t.isLt i
      = outsAt0 m c (t.val - 1) (Nat.lt_of_le_of_lt (Nat.sub_le _ _) t.isLt) i + blockN (scores m c) (labels m c) t.val := by
  refine (congrFun (outsAt0_B m c t h0) i).trans ?_
  refine (congrFun (out_carry (F := Ideal) c (grid0.coords t) (ms0_0 t) (hs0_0 t) (ms0_1 t) (hs0_1 t) (ms0_2 t) (hs0_2 t)
    (fun h => h0 ((hcond0_0 t).mp h)) (xblk m c t) (tblk m c t)
    (outsAt0 m c (t.val - 1) (Nat.lt_of_le_of_lt (Nat.sub_le _ _) t.isLt))) i).trans ?_
  refine (pay2_apply (xblk m c t) (tblk m c t) _ i).trans ?_
  rw [blockValue_at m c t]

/-- After point `n` the buffer holds the sum of the values of its core's blocks up to `n`. -/
theorem outsAt_entry (c : Dev nD) (i : S1x1x1.Idx) : ∀ (n : ℕ) (h : n < cfg0.N),
    outsAt0 m c n h i = ∑ k ∈ Finset.range (n % 8 + 1), blockN (scores m c) (labels m c) (n - n % 8 + k)
  | 0, h => by
    refine (entry_reset m c ⟨0, h⟩ rfl i).trans ?_
    simp
  | n + 1, h => by
    by_cases h0 : (n + 1) % 8 = 0
    · refine (entry_reset m c ⟨n + 1, h⟩ h0 i).trans ?_
      show blockN (scores m c) (labels m c) (n + 1) = _
      rw [h0]
      simp
    · refine (entry_carry m c ⟨n + 1, h⟩ h0 i).trans ?_
      show outsAt0 m c n _ i + blockN (scores m c) (labels m c) (n + 1) = _
      rw [outsAt_entry c i n]
      have e1 : (n + 1) % 8 = n % 8 + 1 := by omega
      have e2 : n + 1 - (n % 8 + 1) = n - n % 8 := by omega
      rw [e1, e2, Finset.sum_range_succ _ (n % 8 + 1)]
      congr 2
      omega

/-! ## The output array after the run -/

/-- The two cores' values, as contents of the [2, 1, 1] output array. -/
def coreSums (c : Dev nD) : Buf (Elt Ideal) ((c : Thread nD τ).loc main_v0) :=
  fun j => coreValue (scores m c) (labels m c) (j 0).val

/-- The write-back after a core's last step writes that core's value into its entry. -/
theorem flushed_eq (c : Dev nD) (t : Fin cfg0.N) (hf : (cfg0.win 2).flush t = true) :
    (dats m 0 c).flushed 2 t = ((cfg0.win 2).blk t).view.read (Elt Ideal) (coreSums m c) := by
  have h7 : t.val % 8 = 7 := (flush0_2 t).mp hf
  show (cfg0.win 2).cut (grid0.coords t) ((dats m 0 c).after 2 t) = _
  rw [after0_2]
  funext y
  show outsAt0 m c t.val t.isLt y = coreSums m c (((cfg0.win 2).blk t).view.emb y)
  rw [outsAt_entry m c y t.val t.isLt]
  unfold coreSums coreValue
  obtain ⟨-, -, -, -, e4, -, -⟩ := idx_facts t
  have hy : (y 0).val < 1 := (y 0).isLt
  have hemb : ((((cfg0.win 2).blk t).view.emb y) 0).val = t.val / 8 := by
    show win0_2.index t (0 : Fin 3) * 1 + 1 * (y 0).val = t.val / 8
    omega
  rw [hemb]
  have e1 : t.val % 8 + 1 = 8 := by omega
  have e2 : t.val - t.val % 8 = t.val / 8 * 8 := by omega
  rw [e1, e2]

/-- Each entry of the output array is written by its core's last step. -/
theorem covered (c : Dev nD) (j : ((cfg0.win 2).arr.view.loc (c.tc : Thread nD τ)).2.ty.Idx) :
    ∃ t : Fin cfg0.N, (cfg0.win 2).flush t = true ∧ j ∈ ((cfg0.win 2).blk t).view.set := by
  have hN : cfg0.N = 16 := N_0
  have hj0 : (j 0).val < 2 := (j 0).isLt
  have hj1 : (j 1).val < 1 := (j 1).isLt
  have hj2 : (j 2).val < 1 := (j 2).isLt
  have hlt : (j 0).val * 8 + 7 < cfg0.N := by omega
  refine ⟨⟨(j 0).val * 8 + 7, hlt⟩, (flush0_2 _).mpr (by show ((j 0).val * 8 + 7) % 8 = 7; omega), ?_⟩
  show j ∈ ((View.whole main_v0).slice (win0_2.rect ⟨(j 0).val * 8 + 7, hlt⟩)).set
  rw [View.set_slice_whole, Rect.mem_set_unit]
  obtain ⟨-, -, -, -, e4, e5, e6⟩ := idx_facts ⟨(j 0).val * 8 + 7, hlt⟩
  have e4' : win0_2.index ⟨(j 0).val * 8 + 7, hlt⟩ (0 : Fin 3) = ((j 0).val * 8 + 7) / 8 := e4
  intro a
  match a with
  | ⟨0, _⟩ =>
    show win0_2.index ⟨(j 0).val * 8 + 7, hlt⟩ (0 : Fin 3) * 1 ≤ (j 0).val
      ∧ (j 0).val < win0_2.index ⟨(j 0).val * 8 + 7, hlt⟩ (0 : Fin 3) * 1 + 1
    omega
  | ⟨1, _⟩ =>
    show win0_2.index ⟨(j 0).val * 8 + 7, hlt⟩ (1 : Fin 3) * 1 ≤ (j 1).val
      ∧ (j 1).val < win0_2.index ⟨(j 0).val * 8 + 7, hlt⟩ (1 : Fin 3) * 1 + 1
    omega
  | ⟨2, _⟩ =>
    show win0_2.index ⟨(j 0).val * 8 + 7, hlt⟩ (2 : Fin 3) * 1 ≤ (j 2).val
      ∧ (j 2).val < win0_2.index ⟨(j 0).val * 8 + 7, hlt⟩ (2 : Fin 3) * 1 + 1
    omega

/-- So the output array ends holding the two cores' values. -/
theorem final_eq (c : Dev nD) : (dats m 0 c).arrAt 2 cfg0.N = coreSums m c :=
  (dats m 0 c).arrAt_eq_of_cover 2 (coreSums m c) (flushed_eq m c) (covered c)

end Cert.KernelIdeal.Acc

end
-- ==== Proof.KernelRun.lean ====
/-
  The kernel's result.

  After the region the host sums the output array's two entries from zero and takes `log (1 + ·)`. The array holds
  the two cores' values, which add up to the batch's value, so the result is `log (1 + ·)` of the batch's value,
  and the run leaves the two argument arrays as they were.
-/
import proofs.«416524_j29532195127620_3_alg».proof.Proof.Accumulate
import Idealize.ShloMosaic.Lib.StableHlo.Run

noncomputable section

namespace Cert.KernelIdeal.Acc

open Cert.KernelIdeal Cert.KernelIdeal.Gen
open Idealize.ShloMosaic Idealize.ShloMosaic.TcCoe Idealize.SL.Sem Idealize.ShloMosaic.ValueIdx Cert.Lsep
open Idealize.ShloMosaic.Pipeline (Dat)

variable (m : (ℓ : Loc nD τ sig) → Buf (Elt Ideal) ℓ) (ρ : Dev nD → PrngReg)

/-- The loss of the batch on core `c`, as contents of the result buffer. -/
def loss (c : Dev nD) : Buf (Elt Ideal) ((c : Thread nD τ).loc main_v2) :=
  fun _ => Ideal.log1p (batchValue (scores m c) (labels m c))

/-- The host's sum of a [2, 1, 1] array from zero is the sum of its entries. -/
theorem hostSum_apply (y : (⟨S2x1x1, .f32⟩ : BufTy).Contents (Elt Ideal)) (i : S_.Idx) :
    Host.reduceAdd (F := Ideal) y (constant S_ .f32 0x00000000#32) reducesTo_S2x1x1_S_d0_1_2 h_S_ i = ∑ j : S2x1x1.Idx, y j := by
  simp only [Host.reduceAdd, Ideal.hostReduceAdd_def]
  refine (Ideal.hostReduceAdd_total reducesTo_S2x1x1_S_d0_1_2 (fun b => b.elim0) y _ i).trans ?_
  show Ideal.ofBits .f32 0x00000000#32 + _ = _
  rw [Ideal.ofBits_zero_f32, zero_add]

/-- What the host's lines after the region leave in the result buffer. -/
theorem tail_eq (c : Dev nD) :
    Pipeline.afterTail₀ cfgs (dats m) 0 (V0 m) [hostOps1] c main_v2 = loss m c := by
  unfold Pipeline.afterTail₀
  show StableHlo.after hostOps1 _ (Proc.devRef .tc main_v2) = _
  after_results
  have hA : Pipeline.withArrays (cfgs 0).spec c (V0 m c) (fun w => (dats m 0 c).arrAt w (cfgs 0).N)
      (Proc.devRef .tc main_v0) = coreSums m c :=
    (Pipeline.withArrays_arr spec0 launch0.win.arr_inj c _ _ 2).trans (final_eq m c)
  rw [hA]
  funext i
  show Ideal.log1p (Host.reduceAdd (F := Ideal) (coreSums m c) (constant S_ .f32 0x00000000#32) reducesTo_S2x1x1_S_d0_1_2 h_S_ i) = _
  rw [hostSum_apply, sum_idx311]
  unfold loss
  exact congrArg Ideal.log1p (sum_coreValue (scores m c) (labels m c))

/-- Every weakly fair execution of the kernel's program ends with the result buffer at the batch's loss and the two
    argument arrays unchanged. -/
theorem run : θ_run defs (onTc (τ := τ) (main (F := Ideal))) ⟨m, fun _ => 0, ρ⟩ fun r => ∀ c : Dev nD,
      r.2.mem ((c : Thread nD τ).loc main_v2) = loss m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v2 (Pipeline.mem_restRefs_of main_v2 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Acc

end
-- ==== Proof.lean ====
/-
  A pairwise ranking loss over a batch of 8192 rows of 5000 scores with integer labels.

  For each row, the loss sums `exp (x_n - x_p)` over all pairs of a negative label (`t = 0`) and a positive label
  (`t > 0`), which factors as (sum of `exp x` over the negatives) · (sum of `exp (-x)` over the positives); the
  result is `log (1 + ·)` of the sum of these products over the rows.

  The reference computes exactly that, one exponential per sum. The kernel computes ONE exponential per entry,
  `exp (0 - x)` on the positive labels and `exp x` elsewhere, and selects it into both sums: a label that is zero is
  not positive, and `0 - x = -x` on every extended real, so each selection is the reference's (Proof/Spec.lean).
  It walks the rows in sixteen blocks of 512, eight per core, each core adding its blocks' values into its own entry
  of a two-entry array, reset at the core's first block (Proof/Pieces.lean, Proof/Payload.lean, Proof/Accumulate.lean);
  the host then adds the two entries and takes `log (1 + ·)` (Proof/KernelRun.lean). Sixteen blocks of 512 rows are
  the 8192 rows, and addition of extended reals is commutative and associative, so the two programs sum the same
  terms in another grouping: no entry needs to be finite for that, and the precondition is not used.
-/
import proofs.«416524_j29532195127620_3_alg».proof.Defs
import proofs.«416524_j29532195127620_3_alg».proof.Proof.Gen.Kernel
import proofs.«416524_j29532195127620_3_alg».proof.Proof.Gen.Kernel.Skeleton
import proofs.«416524_j29532195127620_3_alg».proof.Proof.Gen.Kernel.Launch
import proofs.«416524_j29532195127620_3_alg».proof.Proof.Gen.Kernel.Points
import proofs.«416524_j29532195127620_3_alg».proof.Proof.Gen.Kernel.Frame
import proofs.«416524_j29532195127620_3_alg».proof.Proof.Gen.KernelIdeal
import proofs.«416524_j29532195127620_3_alg».proof.Proof.Gen.KernelIdeal.Skeleton
import proofs.«416524_j29532195127620_3_alg».proof.Proof.Gen.KernelIdeal.Launch
import proofs.«416524_j29532195127620_3_alg».proof.Proof.Gen.KernelIdeal.Points
import proofs.«416524_j29532195127620_3_alg».proof.Proof.Gen.KernelIdeal.Frame
import proofs.«416524_j29532195127620_3_alg».proof.Proof.Gen.ReferenceIdeal
import proofs.«416524_j29532195127620_3_alg».proof.Proof.Gen.Pre_finite_inputs
import proofs.«416524_j29532195127620_3_alg».proof.Proof.Gen.ReferenceIdeal.Run
import proofs.«416524_j29532195127620_3_alg».proof.Proof.Gen.ReferenceIdeal.Read
import proofs.«416524_j29532195127620_3_alg».proof.Proof.RefValue
import proofs.«416524_j29532195127620_3_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does the kernel read over extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at `log (1 + ·)` of the batch's value of the same two arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Acc.loss m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq]
  funext i
  rw [Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
